-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2048 : Shape := ⟨3, ![16, 1024, 2048]⟩
abbrev S_ : Shape := ⟨0, ![]⟩

class Facts : Prop where
  bcast_S_S16x1024x2048 : S_.BroadcastsInDim S16x1024x2048 (![] : Fin 0 → Fin S16x1024x2048.rank)
  reducesTo_S16x1024x2048_S_d0_1_2 : S16x1024x2048.ReducesTo [0, 1, 2] S_
  h_S_ : 0 < S_.numel

variable [Facts]

def fn {F : FTy → Type} [FloatOps F] (main_arg0 : FVec F S16x1024x2048 .f32) : IVec S_ 1 :=
  let main_v0 : FVec F S16x1024x2048 .f32 := Host.absf main_arg0
  let main_cst : FVec F S_ .f32 := constant S_ .f32 0x7F800000#32
  let main_v1 : FVec F S16x1024x2048 .f32 := broadcastInDim S16x1024x2048 ![] bcast_S_S16x1024x2048 main_cst
  let main_v2 : IVec S16x1024x2048 1 := cmpf .olt main_v0 main_v1
  let main_c : IVec S_ 1 := constantI S_ 1 1#1
  let main_v3 : IVec S_ 1 := (fun x v => Host.reduce IntOp.andi x v reducesTo_S16x1024x2048_S_d0_1_2 h_S_) main_v2 main_c
  main_v3
-- ==== Kernel.lean ====
abbrev S16x1024x2048 : Shape := ⟨3, ![16, 1024, 2048]⟩
abbrev S16x2051x256 : Shape := ⟨3, ![16, 2051, 256]⟩
abbrev S1x1024x2048 : Shape := ⟨3, ![1, 1024, 2048]⟩
abbrev S1x2051x256 : Shape := ⟨3, ![1, 2051, 256]⟩
abbrev S2051x256 : Shape := ⟨2, ![2051, 256]⟩
abbrev S1x256x2048 : Shape := ⟨3, ![1, 256, 2048]⟩
abbrev S256x2048 : Shape := ⟨2, ![256, 2048]⟩
abbrev S2048x256 : Shape := ⟨2, ![2048, 256]⟩
abbrev S3x256 : Shape := ⟨2, ![3, 256]⟩
abbrev S1x256 : Shape := ⟨2, ![1, 256]⟩
abbrev S2049x256 : Shape := ⟨2, ![2049, 256]⟩
abbrev S2x256 : Shape := ⟨2, ![2, 256]⟩
abbrev S2050x256 : Shape := ⟨2, ![2050, 256]⟩
abbrev S16x525056 : Shape := ⟨2, ![16, 525056]⟩

abbrev nBuf : Space → Nat
  | .hbm => 3
  | .vmem => 4
  | .smem => 0
  | _ => 0

abbrev bufTy : (tb : Table) → Fin (tcTables nBuf tb) → BufTy
  | .hbm, ⟨0, _⟩ => ⟨S16x1024x2048, .f32⟩
  | .hbm, ⟨1, _⟩ => ⟨S16x2051x256, .f32⟩
  | .hbm, ⟨2, _⟩ => ⟨S16x525056, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2051x256, .f32⟩
  | .local _ .vmem, ⟨3, _⟩ => ⟨S1x2051x256, .f32⟩
  | _, _ => ⟨S16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2051x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x2048_S1x256x2048_0_0_0 : ∀ a, (![0, 0, 0] : Fin 3 → Nat) a + S1x256x2048.size a ≤ S1x1024x2048.size a
  h_S1x256x2048 : 0 < S1x256x2048.numel
  shapeCasts_S1x256x2048_S256x2048 : S1x256x2048.ShapeCasts S256x2048
  transposes_S256x2048_p1_0_S2048x256 : S256x2048.Transposes [1, 0] S2048x256
  concatenates_S2048x256_S3x256_S2051x256_d0 : Shape.Concatenates [S2048x256, S3x256] S2051x256 0
  inb_S1x1024x2048_S1x256x2048_0_256_0 : ∀ a, (![0, 256, 0] : Fin 3 → Nat) a + S1x256x2048.size a ≤ S1x1024x2048.size a
  concatenates_S1x256_S2048x256_S2049x256_d0 : Shape.Concatenates [S1x256, S2048x256] S2049x256 0
  concatenates_S2049x256_S2x256_S2051x256_d0 : Shape.Concatenates [S2049x256, S2x256] S2051x256 0
  inb_S1x1024x2048_S1x256x2048_0_512_0 : ∀ a, (![0, 512, 0] : Fin 3 → Nat) a + S1x256x2048.size a ≤ S1x1024x2048.size a
  concatenates_S2x256_S2048x256_S2050x256_d0 : Shape.Concatenates [S2x256, S2048x256] S2050x256 0
  concatenates_S2050x256_S1x256_S2051x256_d0 : Shape.Concatenates [S2050x256, S1x256] S2051x256 0
  inb_S1x1024x2048_S1x256x2048_0_768_0 : ∀ a, (![0, 768, 0] : Fin 3 → Nat) a + S1x256x2048.size a ≤ S1x1024x2048.size a
  concatenates_S3x256_S2048x256_S2051x256_d0 : Shape.Concatenates [S3x256, S2048x256] S2051x256 0
  inb_S1x2051x256_S1x2051x256_0_0_0 : ∀ a, (![0, 0, 0] : Fin 3 → Nat) a + S1x2051x256.size a ≤ S1x2051x256.size a
  h_S1x2051x256 : 0 < S1x2051x256.numel
  shapeCasts_S1x2051x256_S2051x256 : S1x2051x256.ShapeCasts S2051x256
  shapeCasts_S2051x256_S1x2051x256 : S2051x256.ShapeCasts S1x2051x256
  shapeCasts_S16x2051x256_S16x525056 : S16x2051x256.ShapeCasts S16x525056
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x1024x2048.size a
  hwx0_0 : ∀ i : grid0.Coords, EltTy.bits .f32 = 32 ∨ (Rect.block (s := S16x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2051x256.size a ≤ S16x2051x256.size a
  hwx0_1 : ∀ i : grid0.Coords, EltTy.bits .f32 = 32 ∨ (Rect.block (s := S16x2051x256) S1x2051x256.size (cc0_transform_1 i) (hinb0_1 i)).WholeWords (EltTy.packing .f32)

variable [Facts₀]

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2051x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x1024x2048 : Shape := ⟨3, ![16, 1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S_ : Shape := ⟨0, ![]⟩
abbrev S1024x2048 : Shape := ⟨2, ![1024, 2048]⟩
abbrev S16x525056 : Shape := ⟨2, ![16, 525056]⟩
abbrev S1024x2048x1 : Shape := ⟨3, ![1024, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x2048, .f32⟩
  | .hbm, ⟨1, _⟩ => ⟨S1024, .i32⟩
  | .hbm, ⟨2, _⟩ => ⟨S1024x1, .i32⟩
  | .hbm, ⟨3, _⟩ => ⟨S2048, .i32⟩
  | .hbm, ⟨4, _⟩ => ⟨S1x2048, .i32⟩
  | .hbm, ⟨5, _⟩ => ⟨S_, .i32⟩
  | .hbm, ⟨6, _⟩ => ⟨S1x2048, .i32⟩
  | .hbm, ⟨7, _⟩ => ⟨S1x2048, .i32⟩
  | .hbm, ⟨8, _⟩ => ⟨S1024x2048, .i32⟩
  | .hbm, ⟨9, _⟩ => ⟨S1024x2048, .i32⟩
  | .hbm, ⟨10, _⟩ => ⟨S1024x2048, .i32⟩
  | .hbm, ⟨11, _⟩ => ⟨S_, .f32⟩
  | .hbm, ⟨12, _⟩ => ⟨S16x525056, .f32⟩
  | .hbm, ⟨13, _⟩ => ⟨S_, .i32⟩
  | .hbm, ⟨14, _⟩ => ⟨S1024x2048, .i32⟩
  | .hbm, ⟨15, _⟩ => ⟨S1024x2048, .i1⟩
  | .hbm, ⟨16, _⟩ => ⟨S_, .i32⟩
  | .hbm, ⟨17, _⟩ => ⟨S1024x2048, .i32⟩
  | .hbm, ⟨18, _⟩ => ⟨S1024x2048, .i32⟩
  | .hbm, ⟨19, _⟩ => ⟨S1024x2048, .i32⟩
  | .hbm, ⟨20, _⟩ => ⟨S1024x2048x1, .i32⟩
  | .hbm, ⟨21, _⟩ => ⟨S16x525056, .f32⟩
  | _, _ => ⟨S16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1024x1_S1024x2048_0_1 : S1024x1.BroadcastsInDim S1024x2048 (![0, 1] : Fin 2 → Fin S1024x2048.rank)
  bcast_S1x2048_S1024x2048_0_1 : S1x2048.BroadcastsInDim S1024x2048 (![0, 1] : Fin 2 → Fin S1024x2048.rank)
  bcast_S_S16x525056 : S_.BroadcastsInDim S16x525056 (![] : Fin 0 → Fin S16x525056.rank)
  bcast_S_S1024x2048 : S_.BroadcastsInDim S1024x2048 (![] : Fin 0 → Fin S1024x2048.rank)
  bcast_S1024x2048_S1024x2048x1_0_1 : S1024x2048.BroadcastsInDim S1024x2048x1 (![0, 1] : Fin 2 → Fin S1024x2048x1.rank)
  scatter_S16x525056_S1024x2048x1_S16x1024x2048_0_1_1_2_wf : ScatterDims.WF S16x525056 S1024x2048x1 S16x1024x2048 [0] [1] [1] 2

variable [Facts₀]

def scatter_S16x525056_S1024x2048x1_S16x1024x2048_0_1_1_2 : ScatterDims S16x525056 S1024x2048x1 S16x1024x2048 where
  updateWindowDims := [0]
  insertedWindowDims := [1]
  scatterDimsToOperandDims := [1]
  indexVectorDim := 2
  wf := scatter_S16x525056_S1024x2048x1_S16x1024x2048_0_1_1_2_wf

class Facts : Prop extends Facts₀ where

variable [Facts]
-- ==== Proof.LibRowPad.lean ====
/-
  Row blocks stacked, a slab turned over, and a strip of a block, each read at an entry.

  stack_top / stack_bot: two matrices of the same width stacked along axis 0 read, at row i, the first matrix at row i when
  i is one of its rows, and the second at row i - n₁ otherwise.
  slab_turned: a slab [1, a, b] viewed as a matrix [a, b] and transposed reads, at (f, j), the slab at (0, j, f).
  ld_strip: the strip of a [1, R, W] block that starts at row o and is h rows high reads, at (0, j, f), the block at
  (0, o + j, f).
-/
import Idealize.ShloMosaic.Lib.Pipeline.Value
import Idealize.ShloMosaic.Lib.Pipeline.FrameBody
import Idealize.ShloMosaic.Lib.ValueIdx

noncomputable section

namespace RowPad

open Idealize.ShloMosaic Idealize.ShloMosaic.ValueIdx

variable {α : Type}

/-- A row of the stack that is a row of the first matrix. -/
theorem stack_top {N n₁ n₂ C : ℕ} (x₁ : (⟨2, ![n₁, C]⟩ : Shape).Idx → α) (x₂ : (⟨2, ![n₂, C]⟩ : Shape).Idx → α)
    (h : Shape.Concatenates [⟨2, ![n₁, C]⟩, ⟨2, ![n₂, C]⟩] ⟨2, ![N, C]⟩ 0) (i : Fin N) (j : Fin C) (hi : i.val < n₁) :
    concatenate (⟨2, ![N, C]⟩ : Shape) 0 [⟨⟨2, ![n₁, C]⟩, x₁⟩, ⟨⟨2, ![n₂, C]⟩, x₂⟩] h (ix2 i j)
      = x₁ (ix2 ⟨i.val, hi⟩ j) :=
  concatenate_pair_apply_left 0 x₁ x₂ h (ix2 i j) rfl (ix2 ⟨i.val, hi⟩ j)
    (fun b => match b with | ⟨0, _⟩ => rfl | ⟨1, _⟩ => rfl)

/-- A row of the stack past the first matrix. -/
theorem stack_bot {N n₁ n₂ C : ℕ} (x₁ : (⟨2, ![n₁, C]⟩ : Shape).Idx → α) (x₂ : (⟨2, ![n₂, C]⟩ : Shape).Idx → α)
    (h : Shape.Concatenates [⟨2, ![n₁, C]⟩, ⟨2, ![n₂, C]⟩] ⟨2, ![N, C]⟩ 0) (i : Fin N) (j : Fin C) (hi : n₁ ≤ i.val)
    (hi' : i.val - n₁ < n₂) :
    concatenate (⟨2, ![N, C]⟩ : Shape) 0 [⟨⟨2, ![n₁, C]⟩, x₁⟩, ⟨⟨2, ![n₂, C]⟩, x₂⟩] h (ix2 i j)
      = x₂ (ix2 ⟨i.val - n₁, hi'⟩ j) :=
  concatenate_pair_apply_right 0 x₁ x₂ h (ix2 i j) rfl rfl (ix2 ⟨i.val - n₁, hi'⟩ j)
    (fun b hb => match b, hb with
      | ⟨0, _⟩, hb => absurd rfl hb
      | ⟨1, _⟩, _ => rfl)
    (by show i.val - n₁ + n₁ = i.val; omega)

/-- The slab viewed as a matrix and transposed. -/
theorem slab_turned {a b : ℕ} (v : (⟨3, ![1, a, b]⟩ : Shape).Idx → α)
    (h₁ : (⟨3, ![1, a, b]⟩ : Shape).ShapeCasts ⟨2, ![a, b]⟩)
    (h₂ : (⟨2, ![a, b]⟩ : Shape).Transposes [1, 0] ⟨2, ![b, a]⟩) (f : Fin b) (j : Fin a) :
    transpose (⟨2, ![b, a]⟩ : Shape) [1, 0] (shapeCast (⟨2, ![a, b]⟩ : Shape) v h₁) h₂ (ix2 f j)
      = v (ix3 (0 : Fin 1) j f) := by
  rw [transpose_apply [1, 0] _ h₂ (ix2 f j) (ix2 j f)
    (fun c => match c with | ⟨0, _⟩ => rfl | ⟨1, _⟩ => rfl)]
  rw [shapeCast_dropUnit_apply ![a, b] v h₁ (ix2 j f)]
  congr 1
  funext c
  match c with
  | ⟨0, _⟩ => rfl
  | ⟨1, _⟩ => rfl
  | ⟨2, _⟩ => rfl

/-- A strip of a block. -/
theorem ld_strip {Val : EltTy → Type} {e : EltTy} {R W o h : ℕ} (X : (⟨3, ![1, R, W]⟩ : Shape).Idx → Val e)
    (inb : ∀ c, (![0, o, 0] : Fin 3 → ℕ) c + (![1, h, W] : Fin 3 → ℕ) c ≤ (⟨3, ![1, R, W]⟩ : Shape).size c)
    (j : Fin h) (f : Fin W) (hj : o + j.val < R) :
    View.ld X (Rect.unit (s := ⟨3, ![1, R, W]⟩) ![0, o, 0] ![1, h, W] inb) (ix3 (0 : Fin 1) j f)
      = X (ix3 (0 : Fin 1) ⟨o + j.val, hj⟩ f) := by
  show X ((Rect.unit (s := ⟨3, ![1, R, W]⟩) ![0, o, 0] ![1, h, W] inb).idx (ix3 (0 : Fin 1) j f)) = _
  congr 1
  funext c
  apply Fin.ext
  match c with
  | ⟨0, _⟩ => rfl
  | ⟨1, _⟩ => show o + 1 * j.val = o + j.val; omega
  | ⟨2, _⟩ => show 0 + 1 * f.val = f.val; omega

end RowPad

end
-- ==== Proof.OverlapSum.lean ====
/-
  Overlap-add with window 1024 and hop 256, as arithmetic on indices.

  Frame f contributes its window row c to sample c + 256 f. Write the sample as 256 m + j with j < 256 and the row as
  256 r + j' with r < 4, j' < 256: the row lands on the sample exactly when j' = j and r + f = m. So sample 256 m + j
  receives at most four contributions, one for each quarter r of the window: row 256 r + j of frame m - r, when that
  frame exists (r ≤ m and m - r < 2048). The sum over all (row, frame) pairs that land on the sample is the sum of those
  four, in any commutative monoid.
-/
import Mathlib.Algebra.BigOperators.Fin
import Mathlib.Algebra.BigOperators.Group.Finset.Basic
import Mathlib.Data.Fintype.BigOperators
import Mathlib.Tactic.Ring

open scoped BigOperators

namespace OverlapAdd

variable {M : Type*} [AddCommMonoid M]

/-- Quarter r of the window's contribution to sample 256 m + j: row 256 r + j of frame m - r, nothing when there is no
    such frame. -/
def quarter (g : Fin 1024 → Fin 2048 → M) (r : Fin 4) (m : ℕ) (j : Fin 256) : M :=
  if h : r.val ≤ m ∧ m - r.val < 2048 then g ⟨256 * r.val + j.val, by omega⟩ ⟨m - r.val, h.2⟩ else 0

/-- Where the frame exists, the quarter's contribution is that frame's row. -/
theorem quarter_of_frame (g : Fin 1024 → Fin 2048 → M) (r : Fin 4) (m : ℕ) (j : Fin 256) (c : Fin 1024) (f : Fin 2048)
    (hc : c.val = 256 * r.val + j.val) (hf : f.val + r.val = m) : quarter g r m j = g c f := by
  have hlt := f.isLt
  unfold quarter
  rw [dif_pos ⟨by omega, by omega⟩]
  congr 1 <;> apply Fin.ext <;> simp only <;> omega

/-- Where it does not, the quarter contributes nothing. -/
theorem quarter_of_no_frame (g : Fin 1024 → Fin 2048 → M) (r : Fin 4) (m : ℕ) (j : Fin 256)
    (h : m < r.val ∨ r.val + 2048 ≤ m) : quarter g r m j = 0 := by
  unfold quarter
  rw [dif_neg (by omega)]

/-- A window row is a quarter and a position inside the quarter. -/
def rowEquiv : Fin 4 × Fin 256 ≃ Fin 1024 where
  toFun p := ⟨256 * p.1.val + p.2.val, by omega⟩
  invFun c := (⟨c.val / 256, by omega⟩, ⟨c.val % 256, by omega⟩)
  left_inv p := by
    apply Prod.ext <;> apply Fin.ext <;> simp only <;> omega
  right_inv c := by
    apply Fin.ext; simp only; omega

/-- Within quarter r, the pairs (position, frame) landing on sample 256 m + j contribute `quarter g r m j`. -/
theorem sum_quarter (g : Fin 1024 → Fin 2048 → M) (r : Fin 4) (m : ℕ) (j : Fin 256) :
    (∑ j' : Fin 256, ∑ f : Fin 2048,
        if (rowEquiv (r, j')).val + 256 * f.val = 256 * m + j.val then g (rowEquiv (r, j')) f else 0)
      = quarter g r m j := by
  have hr := r.isLt
  have hj := j.isLt
  rw [Finset.sum_eq_single j]
  · unfold quarter
    by_cases h : r.val ≤ m ∧ m - r.val < 2048
    · rw [dif_pos h, Finset.sum_eq_single (⟨m - r.val, h.2⟩ : Fin 2048)]
      · rw [if_pos (by show 256 * r.val + j.val + 256 * (m - r.val) = 256 * m + j.val; omega)]
        rfl
      · intro f _ hne
        rw [if_neg]
        intro e
        apply hne
        apply Fin.ext
        show f.val = m - r.val
        have e' : 256 * r.val + j.val + 256 * f.val = 256 * m + j.val := e
        omega
      · intro hn; exact absurd (Finset.mem_univ _) hn
    · rw [dif_neg h]
      refine Finset.sum_eq_zero fun f _ => ?_
      rw [if_neg]
      intro e
      have e' : 256 * r.val + j.val + 256 * f.val = 256 * m + j.val := e
      have hf := f.isLt
      apply h
      omega
  · intro j' _ hne
    refine Finset.sum_eq_zero fun f _ => ?_
    rw [if_neg]
    intro e
    have e' : 256 * r.val + j'.val + 256 * f.val = 256 * m + j.val := e
    have hj' := j'.isLt
    apply hne
    apply Fin.ext
    omega
  · intro hn; exact absurd (Finset.mem_univ _) hn

/-- Sample 256 m + j: the four quarters' contributions, added in the order of the quarters. -/
def landing (g : Fin 1024 → Fin 2048 → M) (m : ℕ) (j : Fin 256) : M :=
  quarter g 0 m j + quarter g 1 m j + quarter g 2 m j + quarter g 3 m j

/-- THE OVERLAP-ADD SUM: everything landing on sample 256 m + j is the four quarters' contributions. -/
theorem sum_landing (g : Fin 1024 → Fin 2048 → M) (m : ℕ) (j : Fin 256) :
    (∑ c : Fin 1024, ∑ f : Fin 2048, if c.val + 256 * f.val = 256 * m + j.val then g c f else 0)
      = landing g m j := by
  unfold landing
  rw [← Equiv.sum_comp rowEquiv, Fintype.sum_prod_type, Fin.sum_univ_four,
    sum_quarter, sum_quarter, sum_quarter, sum_quarter]

end OverlapAdd
-- ==== Proof.KernelBlock.lean ====
/-
  What the kernel body stores, read at an entry.

  The body loads the four quarters of its [1, 1024, 2048] block (256 window rows by 2048 frames each), turns each over
  into [2048, 256] (frames by positions), pads quarter r with r zero rows above and 3 - r zero rows below to [2051, 256],
  and adds the four to a zero matrix. Row m of quarter r's padded matrix is frame m - r of the quarter when there is such
  a frame, and zero otherwise: the contribution `quarter` of the index arithmetic. So the stored block, at (0, m, j), is
  zero plus the four contributions.
-/
import proofs.«109010_j78116865179935_1_alg».proof.Proof.Gen.KernelIdeal.Frame
import proofs.«109010_j78116865179935_1_alg».proof.Proof.LibRowPad
import proofs.«109010_j78116865179935_1_alg».proof.Proof.OverlapSum
import Idealize.ShloMosaic.Lib.KernelVsHost
import Idealize.ShloMosaic.PureOps.Ideal.Laws

noncomputable section

namespace Cert.KernelIdeal.OverlapBlock

open Cert.KernelIdeal Cert.KernelIdeal.Gen
open Idealize.ShloMosaic Idealize.ShloMosaic.ValueIdx OverlapAdd RowPad

/-- A [1, 1024, 2048] block as window rows by frames. -/
abbrev rowsOf (x0 : Vec Ideal S1x1024x2048 .f32) : Fin 1024 → Fin 2048 → EReal := fun c f => x0 (ix3 (0 : Fin 1) c f)

/-- The padding value: the integer zero converted. -/
abbrev zf : Ideal .f32 := Scalar.sitofp .f32 0#32

theorem zf_eq : zf = (0 : EReal) := sitofp_zero

/-- A loaded quarter turned over: frames by positions. -/
def turned (v : Vec Ideal S1x256x2048 .f32) : FVec Ideal S2048x256 .f32 :=
  transpose S2048x256 [1, 0] (shapeCast S256x2048 v shapeCasts_S1x256x2048_S256x2048) transposes_S256x2048_p1_0_S2048x256

theorem turned_apply (v : Vec Ideal S1x256x2048 .f32) (f : Fin 2048) (j : Fin 256) :
    turned v (ix2 f j) = v (ix3 (0 : Fin 1) j f) :=
  slab_turned v shapeCasts_S1x256x2048_S256x2048 transposes_S256x2048_p1_0_S2048x256 f j

/-- Quarter 0 padded: the frames, then three zero rows. -/
def pad0 (v : Vec Ideal S1x256x2048 .f32) : FVec Ideal S2051x256 .f32 :=
  concatenate S2051x256 0 [⟨S2048x256, turned v⟩, ⟨S3x256, broadcast S3x256 zf⟩] concatenates_S2048x256_S3x256_S2051x256_d0

/-- Quarter 1 padded: one zero row, the frames, two zero rows. -/
def pad1 (v : Vec Ideal S1x256x2048 .f32) : FVec Ideal S2051x256 .f32 :=
  concatenate S2051x256 0
    [⟨S2049x256, concatenate S2049x256 0 [⟨S1x256, broadcast S1x256 zf⟩, ⟨S2048x256, turned v⟩]
        concatenates_S1x256_S2048x256_S2049x256_d0⟩,
     ⟨S2x256, broadcast S2x256 zf⟩] concatenates_S2049x256_S2x256_S2051x256_d0

/-- Quarter 2 padded: two zero rows, the frames, one zero row. -/
def pad2 (v : Vec Ideal S1x256x2048 .f32) : FVec Ideal S2051x256 .f32 :=
  concatenate S2051x256 0
    [⟨S2050x256, concatenate S2050x256 0 [⟨S2x256, broadcast S2x256 zf⟩, ⟨S2048x256, turned v⟩]
        concatenates_S2x256_S2048x256_S2050x256_d0⟩,
     ⟨S1x256, broadcast S1x256 zf⟩] concatenates_S2050x256_S1x256_S2051x256_d0

/-- Quarter 3 padded: three zero rows, then the frames. -/
def pad3 (v : Vec Ideal S1x256x2048 .f32) : FVec Ideal S2051x256 .f32 :=
  concatenate S2051x256 0 [⟨S3x256, broadcast S3x256 zf⟩, ⟨S2048x256, turned v⟩] concatenates_S3x256_S2048x256_S2051x256_d0

/-- The stored value is the zero matrix plus the four padded quarters, given its leading unit axis. -/
theorem pay_eq (v1 v8 v17 v26 : Vec Ideal S1x256x2048 .f32) :
    k0_pay1 (F := Ideal) v1 v8 v17 v26
      = shapeCast S1x2051x256
          (addf (addf (addf (addf (broadcast S2051x256 (Scalar.ofBits .f32 0x00000000#32)) (pad0 v1)) (pad1 v8)) (pad2 v17))
            (pad3 v26))
          shapeCasts_S2051x256_S1x2051x256 := rfl

/-- The four strips the body loads are the block's four quarters. -/
theorem ld0 (x0 : Vec Ideal S1x1024x2048 .f32) (j : Fin 256) (f : Fin 2048) :
    View.ld x0 r0_0 (ix3 (0 : Fin 1) j f) = x0 (ix3 (0 : Fin 1) ⟨0 + j.val, by omega⟩ f) :=
  ld_strip x0 inb_S1x1024x2048_S1x256x2048_0_0_0 j f (by omega)
theorem ld1 (x0 : Vec Ideal S1x1024x2048 .f32) (j : Fin 256) (f : Fin 2048) :
    View.ld x0 r0_1 (ix3 (0 : Fin 1) j f) = x0 (ix3 (0 : Fin 1) ⟨256 + j.val, by omega⟩ f) :=
  ld_strip x0 inb_S1x1024x2048_S1x256x2048_0_256_0 j f (by omega)
theorem ld2 (x0 : Vec Ideal S1x1024x2048 .f32) (j : Fin 256) (f : Fin 2048) :
    View.ld x0 r0_2 (ix3 (0 : Fin 1) j f) = x0 (ix3 (0 : Fin 1) ⟨512 + j.val, by omega⟩ f) :=
  ld_strip x0 inb_S1x1024x2048_S1x256x2048_0_512_0 j f (by omega)
theorem ld3 (x0 : Vec Ideal S1x1024x2048 .f32) (j : Fin 256) (f : Fin 2048) :
    View.ld x0 r0_3 (ix3 (0 : Fin 1) j f) = x0 (ix3 (0 : Fin 1) ⟨768 + j.val, by omega⟩ f) :=
  ld_strip x0 inb_S1x1024x2048_S1x256x2048_0_768_0 j f (by omega)

/-- Row m of quarter 0's padded matrix is quarter 0's contribution to sample 256 m + j. -/
theorem pad0_apply (x0 : Vec Ideal S1x1024x2048 .f32) (m : Fin 2051) (j : Fin 256) :
    pad0 (View.ld x0 r0_0) (ix2 m j) = quarter (rowsOf x0) 0 m.val j := by
  have hm := m.isLt
  unfold pad0
  by_cases h : m.val < 2048
  · refine (stack_top (N := 2051) (n₁ := 2048) (n₂ := 3) (C := 256) _ _ _ m j h).trans ?_
    refine (turned_apply _ ⟨m.val, h⟩ j).trans ?_
    refine (ld0 x0 j ⟨m.val, h⟩).trans ?_
    exact (quarter_of_frame (rowsOf x0) 0 m.val j ⟨0 + j.val, by omega⟩ ⟨m.val, h⟩
      (by show 0 + j.val = 256 * 0 + j.val; omega) (by show m.val + 0 = m.val; omega)).symm
  · refine (stack_bot (N := 2051) (n₁ := 2048) (n₂ := 3) (C := 256) _ _ _ m j (by omega) (by omega)).trans ?_
    refine zf_eq.trans ?_
    exact (quarter_of_no_frame (rowsOf x0) 0 m.val j (Or.inr (by show 0 + 2048 ≤ m.val; omega))).symm

/-- Row m of quarter 1's padded matrix. -/
theorem pad1_apply (x0 : Vec Ideal S1x1024x2048 .f32) (m : Fin 2051) (j : Fin 256) :
    pad1 (View.ld x0 r0_1) (ix2 m j) = quarter (rowsOf x0) 1 m.val j := by
  have hm := m.isLt
  unfold pad1
  by_cases h : m.val < 2049
  · refine (stack_top (N := 2051) (n₁ := 2049) (n₂ := 2) (C := 256) _ _ _ m j h).trans ?_
    by_cases h' : m.val < 1
    · refine (stack_top (N := 2049) (n₁ := 1) (n₂ := 2048) (C := 256) _ _ _ ⟨m.val, h⟩ j h').trans ?_
      refine zf_eq.trans ?_
      exact (quarter_of_no_frame (rowsOf x0) 1 m.val j (Or.inl (by show m.val < 1; omega))).symm
    · refine (stack_bot (N := 2049) (n₁ := 1) (n₂ := 2048) (C := 256) _ _ _ ⟨m.val, h⟩ j
        (by show 1 ≤ m.val; omega) (by show m.val - 1 < 2048; omega)).trans ?_
      refine (turned_apply _ ⟨m.val - 1, by omega⟩ j).trans ?_
      refine (ld1 x0 j ⟨m.val - 1, by omega⟩).trans ?_
      exact (quarter_of_frame (rowsOf x0) 1 m.val j ⟨256 + j.val, by omega⟩ ⟨m.val - 1, by omega⟩
        (by show 256 + j.val = 256 * 1 + j.val; omega) (by show m.val - 1 + 1 = m.val; omega)).symm
  · refine (stack_bot (N := 2051) (n₁ := 2049) (n₂ := 2) (C := 256) _ _ _ m j (by omega) (by omega)).trans ?_
    refine zf_eq.trans ?_
    exact (quarter_of_no_frame (rowsOf x0) 1 m.val j (Or.inr (by show 1 + 2048 ≤ m.val; omega))).symm

/-- Row m of quarter 2's padded matrix. -/
theorem pad2_apply (x0 : Vec Ideal S1x1024x2048 .f32) (m : Fin 2051) (j : Fin 256) :
    pad2 (View.ld x0 r0_2) (ix2 m j) = quarter (rowsOf x0) 2 m.val j := by
  have hm := m.isLt
  unfold pad2
  by_cases h : m.val < 2050
  · refine (stack_top (N := 2051) (n₁ := 2050) (n₂ := 1) (C := 256) _ _ _ m j h).trans ?_
    by_cases h' : m.val < 2
    · refine (stack_top (N := 2050) (n₁ := 2) (n₂ := 2048) (C := 256) _ _ _ ⟨m.val, h⟩ j h').trans ?_
      refine zf_eq.trans ?_
      exact (quarter_of_no_frame (rowsOf x0) 2 m.val j (Or.inl (by show m.val < 2; omega))).symm
    · refine (stack_bot (N := 2050) (n₁ := 2) (n₂ := 2048) (C := 256) _ _ _ ⟨m.val, h⟩ j
        (by show 2 ≤ m.val; omega) (by show m.val - 2 < 2048; omega)).trans ?_
      refine (turned_apply _ ⟨m.val - 2, by omega⟩ j).trans ?_
      refine (ld2 x0 j ⟨m.val - 2, by omega⟩).trans ?_
      exact (quarter_of_frame (rowsOf x0) 2 m.val j ⟨512 + j.val, by omega⟩ ⟨m.val - 2, by omega⟩
        (by show 512 + j.val = 256 * 2 + j.val; omega) (by show m.val - 2 + 2 = m.val; omega)).symm
  · refine (stack_bot (N := 2051) (n₁ := 2050) (n₂ := 1) (C := 256) _ _ _ m j (by omega) (by omega)).trans ?_
    refine zf_eq.trans ?_
    exact (quarter_of_no_frame (rowsOf x0) 2 m.val j (Or.inr (by show 2 + 2048 ≤ m.val; omega))).symm

/-- Row m of quarter 3's padded matrix. -/
theorem pad3_apply (x0 : Vec Ideal S1x1024x2048 .f32) (m : Fin 2051) (j : Fin 256) :
    pad3 (View.ld x0 r0_3) (ix2 m j) = quarter (rowsOf x0) 3 m.val j := by
  have hm := m.isLt
  unfold pad3
  by_cases h : m.val < 3
  · refine (stack_top (N := 2051) (n₁ := 3) (n₂ := 2048) (C := 256) _ _ _ m j h).trans ?_
    refine zf_eq.trans ?_
    exact (quarter_of_no_frame (rowsOf x0) 3 m.val j (Or.inl (by show m.val < 3; omega))).symm
  · refine (stack_bot (N := 2051) (n₁ := 3) (n₂ := 2048) (C := 256) _ _ _ m j (by omega) (by omega)).trans ?_
    refine (turned_apply _ ⟨m.val - 3, by omega⟩ j).trans ?_
    refine (ld3 x0 j ⟨m.val - 3, by omega⟩).trans ?_
    exact (quarter_of_frame (rowsOf x0) 3 m.val j ⟨768 + j.val, by omega⟩ ⟨m.val - 3, by omega⟩
      (by show 768 + j.val = 256 * 3 + j.val; omega) (by show m.val - 3 + 3 = m.val; omega)).symm

/-- THE STORED BLOCK AT AN ENTRY: the four quarters' contributions to sample 256 m + j. -/
theorem pay_apply (x0 : Vec Ideal S1x1024x2048 .f32) (m : Fin 2051) (j : Fin 256) :
    k0_pay1 (F := Ideal) (View.ld x0 r0_0) (View.ld x0 r0_1) (View.ld x0 r0_2) (View.ld x0 r0_3) (ix3 (0 : Fin 1) m j)
      = landing (rowsOf x0) m.val j := by
  rw [pay_eq]
  refine (shapeCast_addUnit_apply ![2051, 256] _ shapeCasts_S2051x256_S1x2051x256 (ix3 (0 : Fin 1) m j)).trans ?_
  have e : (fun a : Fin 2 => (ix3 (0 : Fin 1) m j : (⟨3, ![1, 2051, 256]⟩ : Shape).Idx) a.succ) = ix2 m j := by
    funext a; match a with | ⟨0, _⟩ => rfl | ⟨1, _⟩ => rfl
  rw [e]
  show (Ideal.ofBits .f32 0x00000000#32 + pad0 (View.ld x0 r0_0) (ix2 m j)) + pad1 (View.ld x0 r0_1) (ix2 m j)
      + pad2 (View.ld x0 r0_2) (ix2 m j) + pad3 (View.ld x0 r0_3) (ix2 m j) = _
  rw [pad0_apply, pad1_apply, pad2_apply, pad3_apply, Ideal.ofBits_zero_f32, zero_add]
  rfl

end Cert.KernelIdeal.OverlapBlock

end
-- ==== Proof.Samples.lean ====
/-
  The overlap-add result as a function of the argument array x : [16, 1024, 2048] (batch row, window row, frame).

  samples x (b, p) is sample p of batch row b: with p = 256 m + j, the four quarters' contributions to sample 256 m + j
  from row b's window rows and frames. samples3 is the same laid out [16, 2051, 256], entry (b, m, j).
-/
import proofs.«109010_j78116865179935_1_alg».proof.Proof.OverlapSum
import Idealize.ShloMosaic.Lib.ValueIdx

noncomputable section

namespace OverlapAdd

open Idealize.ShloMosaic Idealize.ShloMosaic.ValueIdx

/-- Row b's sample 256 m + j, laid out as the array [16, 2051, 256]. -/
def samples3 (x : (⟨3, ![16, 1024, 2048]⟩ : Shape).Idx → EReal) : (⟨3, ![16, 2051, 256]⟩ : Shape).Idx → EReal :=
  fun i => landing (fun c f => x (ix3 (i 0) c f)) (i 1).val (i 2)

/-- Row b's sample p, laid out as the result [16, 525056]. -/
def samples (x : (⟨3, ![16, 1024, 2048]⟩ : Shape).Idx → EReal) : (⟨2, ![16, 525056]⟩ : Shape).Idx → EReal :=
  fun i => landing (fun c f => x (ix3 (i 0) c f)) ((i 1).val / 256) ⟨(i 1).val % 256, Nat.mod_lt _ (by decide)⟩

/-- An entry of the array named by its coordinates. -/
theorem samples3_at (x : (⟨3, ![16, 1024, 2048]⟩ : Shape).Idx → EReal) (i : (⟨3, ![16, 2051, 256]⟩ : Shape).Idx)
    (b : Fin 16) (mm : Fin 2051) (j : Fin 256)
    (h0 : (i 0).val = b.val) (h1 : (i 1).val = mm.val) (h2 : (i 2).val = j.val) :
    samples3 x i = landing (fun c f => x (ix3 b c f)) mm.val j := by
  have e : i = ix3 b mm j := by
    funext a; apply Fin.ext
    match a with
    | ⟨0, _⟩ => exact h0
    | ⟨1, _⟩ => exact h1
    | ⟨2, _⟩ => exact h2
  rw [e]; rfl

/-- An entry of the result named by its row, and its sample split as 256 m + j. -/
theorem samples_at (x : (⟨3, ![16, 1024, 2048]⟩ : Shape).Idx → EReal) (i : (⟨2, ![16, 525056]⟩ : Shape).Idx)
    (b : Fin 16) (mm : ℕ) (j : Fin 256) (h0 : (i 0).val = b.val) (h1 : (i 1).val = 256 * mm + j.val) :
    samples x i = landing (fun c f => x (ix3 b c f)) mm j := by
  have hj' := j.isLt
  have hb : i 0 = b := Fin.ext h0
  have hm : (i 1).val / 256 = mm := by omega
  have hj : (⟨(i 1).val % 256, Nat.mod_lt _ (by decide)⟩ : Fin 256) = j := Fin.ext (by show (i 1).val % 256 = j.val; omega)
  unfold samples
  rw [hb, hm, hj]

end OverlapAdd

end
-- ==== Proof.KernelArray.lean ====
/-
  The kernel's result array.

  Grid point t handles batch row t: its input block is row t of the argument, its output block row t of the
  [16, 2051, 256] array, and what it writes there is, at (m, j), the four quarters' contributions to sample 256 m + j of
  row t. The sixteen blocks tile the array, so after the run the array holds, at (b, m, j), row b's sample 256 m + j.
  The line after the region reshapes [16, 2051, 256] to [16, 525056] in row-major order: entry (b, p) of the result is
  entry (b, p / 256, p % 256) of the array, row b's sample p.
-/
import proofs.«109010_j78116865179935_1_alg».proof.Proof.Gen.KernelIdeal.Frame
import proofs.«109010_j78116865179935_1_alg».proof.Proof.KernelBlock
import proofs.«109010_j78116865179935_1_alg».proof.Proof.Samples
import Idealize.ShloMosaic.Lib.Pipeline.Value
import Idealize.ShloMosaic.Lib.StableHlo.Run
import Idealize.ShloMosaic.Lib.Tactic

noncomputable section

namespace Cert.KernelIdeal.OverlapArray

open Cert.KernelIdeal Cert.KernelIdeal.Gen Cert.KernelIdeal.OverlapBlock
open Idealize.ShloMosaic Idealize.ShloMosaic.TcCoe Idealize.SL.Sem Idealize.ShloMosaic.ValueIdx OverlapAdd
open Idealize.ShloMosaic.Pipeline (Dat)

variable (m : (ℓ : Loc nD τ sig) → Buf (Elt Ideal) ℓ) (ρ : Dev nD → PrngReg)

/-- The argument array as the region finds it, and grid point t's input block. -/
abbrev xarr (c : Dev nD) : S16x1024x2048.Idx → EReal := V m c main_arg0
abbrev xblk (c : Dev nD) (t : Fin cfg0.N) : Vec Ideal S1x1024x2048 .f32 := iblk m c 0 t

theorem hz : (![0, 0, 0] : Fin 3 → Nat) = fun _ => 0 := funext fun a => by fin_cases a <;> rfl

/-- The printed index maps over the grid: both windows are at block (t, 0, 0) at point t. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Point t's input block is batch row t of the argument. -/
theorem xblk_apply (c : Dev nD) (t : Fin cfg0.N) (ht : t.val < 16) (c' : Fin 1024) (f : Fin 2048) :
    xblk m c t (ix3 (0 : Fin 1) c' f) = xarr m c (ix3 (⟨t.val, ht⟩ : Fin 16) c' f) := by
  obtain ⟨e0, e1, e2, -, -, -⟩ := idx_facts t
  unfold xblk iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 1024 + 1 * c'.val = c'.val; omega
  | ⟨2, _⟩ => show win0_0.index t (2 : Fin 3) * 2048 + 1 * f.val = f.val; omega

/-- What point t stores at y is the array's entry at any index with batch row t and y's other coordinates. -/
theorem point_eq (c : Dev nD) (t : Fin cfg0.N) (ht : t.val < 16) (y : S1x2051x256.Idx) (i : S16x2051x256.Idx)
    (h0 : (i 0).val = t.val) (h1 : (i 1).val = (y 1).val) (h2 : (i 2).val = (y 2).val) :
    k0_pay1 (F := Ideal) (View.ld (xblk m c t) r0_0) (View.ld (xblk m c t) r0_1) (View.ld (xblk m c t) r0_2)
        (View.ld (xblk m c t) r0_3) y
      = samples3 (xarr m c) i := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  refine (congrArg (k0_pay1 (F := Ideal) (View.ld (xblk m c t) r0_0) (View.ld (xblk m c t) r0_1)
    (View.ld (xblk m c t) r0_2) (View.ld (xblk m c t) r0_3)) hy).trans ?_
  refine (pay_apply (xblk m c t) (y 1) (y 2)).trans ?_
  rw [samples3_at (xarr m c) i ⟨t.val, ht⟩ (y 1) (y 2) h0 h1 h2]
  exact congrArg (fun g => landing g (y 1).val (y 2))
    (funext fun c' => funext fun f => xblk_apply m c t ht c' f)

/-- WHAT POINT t WRITES BACK is block t of the array of samples. -/
theorem flushed_eq (c : Dev nD) (t : Fin cfg0.N) :
    (dats m 0 c).flushed 1 t = ((cfg0.win 1).blk t).view.read (Elt Ideal) (samples3 (xarr m c)) := by
  have ht : t.val < 16 := lt_of_lt_of_eq t.isLt N_0
  obtain ⟨-, -, -, e3, e4, e5⟩ := idx_facts t
  show (cfg0.win 1).cut (grid0.coords t) ((dats m 0 c).after 1 t) = _
  rw [after0_1]
  unfold out0_1
  rw [View.canon_unit_zero hz]
  funext y
  refine point_eq m c t ht y (((cfg0.win 1).blk t).view.emb y) ?_ ?_ ?_
  · show win0_1.index t (0 : Fin 3) * 1 + 1 * (y 0).val = t.val
    have hy0 : (y 0).val < 1 := (y 0).isLt
    omega
  · show win0_1.index t (1 : Fin 3) * 2051 + 1 * (y 1).val = (y 1).val
    omega
  · show win0_1.index t (2 : Fin 3) * 256 + 1 * (y 2).val = (y 2).val
    omega

/-- An index of the array is in point t's block iff each coordinate is in the block's range on its axis. -/
theorem mem_blk (t : Fin cfg0.N) (i : S16x2051x256.Idx) :
    i ∈ ((cfg0.win 1).blk t).view.set ↔ ∀ a : Fin 3, win0_1.index t a * S1x2051x256.size a ≤ (i a).val
      ∧ (i a).val < win0_1.index t a * S1x2051x256.size a + S1x2051x256.size a := by
  show i ∈ ((View.whole main_v0).slice (win0_1.rect t)).set ↔ _
  rw [View.set_slice_whole, Rect.mem_set_unit]
  exact Iff.rfl

/-- Every entry of the array is in the block of the point that handles its batch row. -/
theorem cover (i : S16x2051x256.Idx) :
    ∃ t : Fin cfg0.N, (cfg0.win 1).flush t = true ∧ i ∈ ((cfg0.win 1).blk t).view.set := by
  have hi0 : (i 0).val < 16 := (i 0).isLt
  have hi1 : (i 1).val < 2051 := (i 1).isLt
  have hi2 : (i 2).val < 256 := (i 2).isLt
  obtain ⟨t, ht⟩ : ∃ t : Fin cfg0.N, t.val = (i 0).val := ⟨⟨(i 0).val, lt_of_lt_of_eq hi0 N_0.symm⟩, rfl⟩
  obtain ⟨-, -, -, e3, e4, e5⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 2051 ≤ (i 1).val ∧ (i 1).val < win0_1.index t (1 : Fin 3) * 2051 + 2051
    omega
  | ⟨2, _⟩ =>
    show win0_1.index t (2 : Fin 3) * 256 ≤ (i 2).val ∧ (i 2).val < win0_1.index t (2 : Fin 3) * 256 + 256
    omega

/-- THE ARRAY after the region: the samples. -/
theorem final (c : Dev nD) : (dats m 0 c).arrAt 1 cfg0.N = samples3 (xarr m c) :=
  (dats m 0 c).arrAt_eq_of_cover 1 (samples3 (xarr m c)) (fun t _ => flushed_eq m c t) cover

/-- The reshape after the region reads the array in row-major order: the result is the samples. -/
theorem tail_v1 (c : Dev nD) :
    Pipeline.afterTail₀ cfgs (dats m) 0 (V0 m) [hostOps1] c main_v1 = samples (xarr m c) := by
  unfold Pipeline.afterTail₀
  show StableHlo.after hostOps1 _ (Proc.devRef .tc main_v1) = _
  after_results
  have hA : Pipeline.withArrays (cfgs 0).spec c (V0 m c) (fun w => (dats m 0 c).arrAt w (cfgs 0).N)
      (Proc.tc.devRef main_v0) = samples3 (xarr m c) :=
    (Pipeline.withArrays_arr spec0 launch0.win.arr_inj c _ _ 1).trans (final m c)
  show (fun i => shapeCast S16x525056
      (Pipeline.withArrays (cfgs 0).spec c (V0 m c) (fun w => (dats m 0 c).arrAt w (cfgs 0).N) (Proc.tc.devRef main_v0))
      shapeCasts_S16x2051x256_S16x525056 i) = samples (xarr m c)
  rw [hA]
  funext i
  have hi1 : (i 1).val < 525056 := (i 1).isLt
  refine (shapeCast_apply (samples3 (xarr m c)) shapeCasts_S16x2051x256_S16x525056 i
    (ix3 (i 0) (⟨(i 1).val / 256, by omega⟩ : Fin 2051) (⟨(i 1).val % 256, Nat.mod_lt _ (by decide)⟩ : Fin 256)) ?_).trans ?_
  · rw [Shape.rowMajor_val_three, Shape.rowMajor_val_two]
    show ((i 0).val * 2051 + (i 1).val / 256) * 256 + (i 1).val % 256 = (i 0).val * 525056 + (i 1).val
    omega
  · rfl

/-- THE KERNEL'S RUN, READ: the result ends at the samples of the argument, the argument unchanged. -/
theorem run : θ_run defs (onTc (τ := τ) (main (F := Ideal))) ⟨m, fun _ => 0, ρ⟩ fun r => ∀ c : Dev nD,
      r.2.mem ((c.tc : Thread nD τ).loc main_v1) = samples (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (tail_v1 m c),
       ((h c).1 0).trans (((dats m 0 c).arrAt_in 0 rfl _).trans ((A_eq m c 0).trans (V_main_arg0 m c)))⟩)
    (run_main m ρ)

end Cert.KernelIdeal.OverlapArray

end
-- ==== Proof.LibScatterGrid.lean ====
/-
  An accumulating scatter whose indices form a grid, read at an entry.

  The operand is a matrix [B, P]; the updates are a stack [B, C, Fr] of B grids; the scatter indices are ONE grid
  [C, Fr, 1] of words shared by every layer of the stack. Update axis 0 is the window axis and goes to operand axis 0;
  operand axis 1 is the inserted axis, and it is the axis the index word names. So update entry (b', c, f) lands on the
  operand's entry (b', t) where t is the word at (c, f) read signed, and is dropped when t is outside [0, P).
  At the exact values the result's entry (b, p) is therefore the operand's entry plus the sum, over the grid, of layer
  b's entries whose word is p.
-/
import Idealize.ShloMosaic.PureOps.Ideal
import Idealize.ShloMosaic.PureOps.Contract
import Idealize.ShloMosaic.Lib.ValueIdx

noncomputable section

open scoped BigOperators

namespace ScatterGrid

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

variable {B P C Fr w : ℕ}

/-- The scatter-indices entry that update entry (b, c, f) reads its one start component at: (c, f, 0). -/
theorem siIdx_eq (wf : ScatterDims.WF ⟨2, ![B, P]⟩ ⟨3, ![C, Fr, 1]⟩ ⟨3, ![B, C, Fr]⟩ [0] [1] [1] 2)
    (b : Fin B) (c : Fin C) (f : Fin Fr) (k : Fin ([1] : List (Fin 2)).length) :
    (ScatterDims.mk (s := ⟨2, ![B, P]⟩) (si := ⟨3, ![C, Fr, 1]⟩) (u := ⟨3, ![B, C, Fr]⟩) [0] [1] [1] 2 wf).siIdx
      (ix3 b c f) k = ix3 c f (0 : Fin 1) := by
  funext a
  apply Fin.ext
  match a with
  | ⟨0, _⟩ => rfl
  | ⟨1, _⟩ => rfl
  | ⟨2, _⟩ =>
    have hk : k.val < 1 := k.isLt
    show k.val = 0
    omega

/-- The stack's scatter with its dimension numbers spelt out. -/
abbrev dims (wf : ScatterDims.WF ⟨2, ![B, P]⟩ ⟨3, ![C, Fr, 1]⟩ ⟨3, ![B, C, Fr]⟩ [0] [1] [1] 2) :
    ScatterDims ⟨2, ![B, P]⟩ ⟨3, ![C, Fr, 1]⟩ ⟨3, ![B, C, Fr]⟩ :=
  ScatterDims.mk [0] [1] [1] 2 wf

variable (wf : ScatterDims.WF ⟨2, ![B, P]⟩ ⟨3, ![C, Fr, 1]⟩ ⟨3, ![B, C, Fr]⟩ [0] [1] [1] 2)

/-- On operand axis 0 no index word is read: the window starts at 0. -/
theorem start0 (idx : IVec ⟨3, ![C, Fr, 1]⟩ w) (b : Fin B) (c : Fin C) (f : Fin Fr) :
    (dims wf).start (ix3 b c f) idx 0 = 0 := rfl

/-- On operand axis 1 the window starts at the word at (c, f), read signed. -/
theorem start1 (idx : IVec ⟨3, ![C, Fr, 1]⟩ w) (b : Fin B) (c : Fin C) (f : Fin Fr) :
    (dims wf).start (ix3 b c f) idx 1 = (idx (ix3 c f (0 : Fin 1))).toInt := by
  have hm : (1 : Fin 2) ∈ (dims wf).scatterDimsToOperandDims := List.mem_singleton.mpr rfl
  unfold ScatterDims.start
  rw [dif_pos hm, siIdx_eq wf]

/-- On operand axis 0 the window coordinate is the update's layer. -/
theorem window0 (b : Fin B) (c : Fin C) (f : Fin Fr) : (dims wf).window (ix3 b c f) 0 = b.val := rfl

/-- Operand axis 1 is inserted: the window has no extent there. -/
theorem window1 (b : Fin B) (c : Fin C) (f : Fin Fr) : (dims wf).window (ix3 b c f) 1 = 0 := rfl

/-- Update entry (b', c, f) lands on operand entry (b, p) exactly when b' = b and the word at (c, f), read signed, is p. -/
theorem resultIdx_iff (idx : IVec ⟨3, ![C, Fr, 1]⟩ w) (b' b : Fin B) (c : Fin C) (f : Fin Fr) (p : Fin P) :
    (dims wf).resultIdx? (ix3 b' c f) idx = some (ix2 b p)
      ↔ b' = b ∧ (idx (ix3 c f (0 : Fin 1))).toInt = (p.val : ℤ) := by
  have hs0 := start0 wf idx b' c f
  have hs1 := start1 wf idx b' c f
  have hw0 := window0 wf b' c f
  have hw1 := window1 wf b' c f
  have hb := b.isLt
  have hb' := b'.isLt
  have hp := p.isLt
  unfold ScatterDims.resultIdx?
  constructor
  · intro h
    split at h
    · rename_i hh
      have hf := Option.some.inj h
      have h0 : ((dims wf).start (ix3 b' c f) idx 0 + ((dims wf).window (ix3 b' c f) 0 : ℤ)).toNat = b.val :=
        congrArg (fun g : (⟨2, ![B, P]⟩ : Shape).Idx => (g 0).val) hf
      have h1 : ((dims wf).start (ix3 b' c f) idx 1 + ((dims wf).window (ix3 b' c f) 1 : ℤ)).toNat = p.val :=
        congrArg (fun g : (⟨2, ![B, P]⟩ : Shape).Idx => (g 1).val) hf
      have hh1 : 0 ≤ (dims wf).start (ix3 b' c f) idx 1 + ((dims wf).window (ix3 b' c f) 1 : ℤ) := (hh 1).1
      rw [hs0, hw0] at h0
      rw [hs1, hw1] at h1 hh1
      exact ⟨Fin.ext (by omega), by omega⟩
    · exact absurd h (by simp)
  · rintro ⟨rfl, h1⟩
    have hh : ∀ a, 0 ≤ (dims wf).start (ix3 b' c f) idx a + ((dims wf).window (ix3 b' c f) a : ℤ)
        ∧ (dims wf).start (ix3 b' c f) idx a + ((dims wf).window (ix3 b' c f) a : ℤ)
            < ((⟨2, ![B, P]⟩ : Shape).size a : ℤ) := by
      intro a
      match a with
      | ⟨0, _⟩ =>
        show 0 ≤ (dims wf).start (ix3 b' c f) idx 0 + ((dims wf).window (ix3 b' c f) 0 : ℤ)
          ∧ (dims wf).start (ix3 b' c f) idx 0 + ((dims wf).window (ix3 b' c f) 0 : ℤ) < (B : ℤ)
        rw [hs0, hw0]; omega
      | ⟨1, _⟩ =>
        show 0 ≤ (dims wf).start (ix3 b' c f) idx 1 + ((dims wf).window (ix3 b' c f) 1 : ℤ)
          ∧ (dims wf).start (ix3 b' c f) idx 1 + ((dims wf).window (ix3 b' c f) 1 : ℤ) < (P : ℤ)
        rw [hs1, hw1]; omega
    rw [dif_pos hh]
    congr 1
    funext a
    apply Fin.ext
    match a with
    | ⟨0, _⟩ =>
      show ((dims wf).start (ix3 b' c f) idx 0 + ((dims wf).window (ix3 b' c f) 0 : ℤ)).toNat = b'.val
      rw [hs0, hw0]; omega
    | ⟨1, _⟩ =>
      show ((dims wf).start (ix3 b' c f) idx 1 + ((dims wf).window (ix3 b' c f) 1 : ℤ)).toNat = p.val
      rw [hs1, hw1]; omega

/-- THE SCATTER AT AN ENTRY: the operand's entry plus the sum over the grid of layer b's entries whose word is p. -/
theorem scatterAdd_grid (x : (⟨2, ![B, P]⟩ : Shape).Idx → EReal) (idx : IVec ⟨3, ![C, Fr, 1]⟩ w)
    (upd : (⟨3, ![B, C, Fr]⟩ : Shape).Idx → EReal) (b : Fin B) (p : Fin P) :
    Ideal.hostScatterAdd (dims wf) x idx upd (ix2 b p)
      = x (ix2 b p) + ∑ c : Fin C, ∑ f : Fin Fr,
          if (idx (ix3 c f (0 : Fin 1))).toInt = (p.val : ℤ) then upd (ix3 b c f) else 0 := by
  unfold Ideal.hostScatterAdd
  congr 1
  rw [Finset.sum_filter, sum_idx3]
  simp only [resultIdx_iff wf]
  rw [Finset.sum_eq_single b]
  · refine Finset.sum_congr rfl fun c _ => Finset.sum_congr rfl fun f _ => ?_
    simp only [true_and]
  · intro b' _ hne
    refine Finset.sum_eq_zero fun c _ => Finset.sum_eq_zero fun f _ => ?_
    rw [if_neg (fun h => hne h.1)]
  · intro h; exact absurd (Finset.mem_univ b) h

end ScatterGrid

end
-- ==== Proof.RefSide.lean ====
/-
  The reference, read at a sample.

  Its index grid holds, at (c, f), the word c + 256 f: an iota down the 1024 window rows plus 256 times an iota along the
  2048 frames. The sum is below 2³¹, so the word is not negative, the wrap-around that numpy indexing applies to
  negative indices does not fire, and the word read signed is the number c + 256 f. The scatter adds x[b, c, f] to the
  zero row b at that sample. Sample 256 m + j of row b therefore ends at zero plus the four quarters of the window that
  reach it.
-/
import proofs.«109010_j78116865179935_1_alg».proof.Proof.Gen.ReferenceIdeal.Run
import proofs.«109010_j78116865179935_1_alg».proof.Proof.Gen.ReferenceIdeal.Read
import proofs.«109010_j78116865179935_1_alg».proof.Proof.LibScatterGrid
import proofs.«109010_j78116865179935_1_alg».proof.Proof.OverlapSum
import proofs.«109010_j78116865179935_1_alg».proof.Proof.Samples
import Idealize.ShloMosaic.Lib.StableHlo.Predicate
import Idealize.ShloMosaic.PureOps.Ideal.Laws

noncomputable section

namespace Cert.ReferenceIdeal.OverlapRef

open Cert.ReferenceIdeal Cert.ReferenceIdeal.Gen Cert.ReferenceIdeal.Read
open Idealize.ShloMosaic Idealize.ShloMosaic.ValueIdx Idealize.ShloMosaic.StableHlo.Predicate

/-- The index grid before the wrap-around test: c + 256 f as a word. -/
theorem grid_word (c : Fin 1024) (f : Fin 2048) :
    val_main_v8 (F := Ideal) (ix2 c f) = BitVec.ofNat 32 (c.val + 256 * f.val) := by
  rw [val_main_v8_apply, val_main_v6_apply, val_main_v7_apply, val_main_v1_apply, val_main_v5_apply,
    val_main_v4_apply, val_main_v3_apply, val_main_v0_apply, val_main_v2_apply, val_main_c_apply]
  show BitVec.ofNat 32 c.val + 256#32 * BitVec.ofNat 32 f.val = BitVec.ofNat 32 (c.val + 256 * f.val)
  apply BitVec.eq_of_toNat_eq
  simp only [BitVec.toNat_add, BitVec.toNat_mul, BitVec.toNat_ofNat]
  have hc := c.isLt
  have hf := f.isLt
  omega

/-- The word the scatter reads at (c, f, 0), signed: the number c + 256 f. -/
theorem word_toInt (c : Fin 1024) (f : Fin 2048) :
    (val_main_v15 (F := Ideal) (ix3 c f (0 : Fin 1))).toInt = ((c.val + 256 * f.val : ℕ) : ℤ) := by
  have hc := c.isLt
  have hf := f.isLt
  have hlt : c.val + 256 * f.val < 2 ^ 31 := by omega
  have e15 : idx_main_v15 (ix3 c f (0 : Fin 1)) = ix2 c f := by
    funext a; match a with | ⟨0, _⟩ => rfl | ⟨1, _⟩ => rfl
  have hnneg : val_main_v11 (F := Ideal) (ix2 c f) = 0#1 := by
    rw [val_main_v11_apply, val_main_v10_apply, val_main_c_0_apply, grid_word]
    apply eq_zero_of_ne_one
    intro h
    have h' := (slt_iff_toNat (a := BitVec.ofNat 32 (c.val + 256 * f.val)) (b := 0#32)
      (by simp only [BitVec.toNat_ofNat]; omega) (by decide)).mp h
    simp at h'
  rw [val_main_v15_apply, e15, val_main_v14_apply, hnneg, select_zero, grid_word]
  exact toInt_ofNat_small _ hlt

/-- The printed scatter's dimension numbers: one grid of index words for every row of the stack. -/
theorem dims_eq : scatter_S16x525056_S1024x2048x1_S16x1024x2048_0_1_1_2
    = ScatterGrid.dims scatter_S16x525056_S1024x2048x1_S16x1024x2048_0_1_1_2_wf := rfl

/-- THE REFERENCE AT A SAMPLE: row b's sample 256 m + j ends at the four quarters' contributions. -/
theorem ref_apply (x : (⟨S16x1024x2048, .f32⟩ : BufTy).Contents (Elt Ideal)) (b : Fin 16) (m : ℕ) (j : Fin 256)
    (hp : 256 * m + j.val < 525056) :
    val_main_v16 (F := Ideal) x (ix2 b ⟨256 * m + j.val, hp⟩)
      = OverlapAdd.landing (fun c f => (x (ix3 b c f) : EReal)) m j := by
  unfold val_main_v16
  show Ideal.hostScatterAdd scatter_S16x525056_S1024x2048x1_S16x1024x2048_0_1_1_2 (val_main_v9 (F := Ideal))
      (val_main_v15 (F := Ideal)) x (ix2 b ⟨256 * m + j.val, hp⟩) = _
  rw [dims_eq, ScatterGrid.scatterAdd_grid, val_main_v9_apply, val_main_cst_apply]
  show Ideal.ofBits .f32 0x00000000#32 + _ = _
  rw [Ideal.ofBits_zero_f32, zero_add, ← OverlapAdd.sum_landing]
  refine Finset.sum_congr rfl fun c _ => Finset.sum_congr rfl fun f _ => ?_
  rw [word_toInt]
  refine if_congr ?_ rfl rfl
  show ((c.val + 256 * f.val : ℕ) : ℤ) = ((256 * m + j.val : ℕ) : ℤ) ↔ _
  exact Nat.cast_inj

/-- THE REFERENCE'S RESULT is the array of samples. -/
theorem ref_eq (x : (⟨S16x1024x2048, .f32⟩ : BufTy).Contents (Elt Ideal)) :
    val_main_v16 (F := Ideal) x = OverlapAdd.samples x := by
  funext i
  have hi1 : (i 1).val < 525056 := (i 1).isLt
  have hsplit : (i 1).val = 256 * ((i 1).val / 256) + (i 1).val % 256 := (Nat.div_add_mod _ _).symm
  have hp : 256 * ((i 1).val / 256) + (i 1).val % 256 < 525056 := by omega
  have hi : i = ix2 (i 0) (⟨256 * ((i 1).val / 256) + (i 1).val % 256, hp⟩ : Fin 525056) := by
    funext a
    match a with
    | ⟨0, _⟩ => rfl
    | ⟨1, _⟩ => exact Fin.ext hsplit
  refine (congrArg (val_main_v16 (F := Ideal) x) hi).trans ?_
  refine (ref_apply x (i 0) ((i 1).val / 256) ⟨(i 1).val % 256, Nat.mod_lt _ (by decide)⟩ hp).trans ?_
  rfl

end Cert.ReferenceIdeal.OverlapRef

end
-- ==== Proof.lean ====
/- Overlap-add of 2048 frames of 1024 samples at hop 256, sixteen batch rows: kernel against reference.

   Frame f adds its window row c to sample c + 256 f. The reference says so directly: a scatter that adds x[b, c, f] into a
   zero row b at the index c + 256 f. The kernel works a batch row at a time: it cuts the window into four quarters of 256
   rows, turns each quarter over to frames by positions, shifts quarter r down by r frames with zero rows above and below,
   adds the four shifted quarters to a zero matrix [2051, 256], and the host reshapes the rows [2051, 256] to 525056
   samples. Writing a sample as 256 m + j and a window row as 256 r + j', row and frame land on the sample exactly when
   j' = j and r + f = m; so the sample receives, from quarter r, row 256 r + j of frame m - r when that frame exists,
   which is the entry (m, j) of the kernel's r-th shifted quarter. Both programs therefore end at the sum of the same four
   terms (zero added in front on both sides), and a sum of extended reals may be regrouped freely, so nothing is asked of
   the inputs: the precondition is not used.

   Modules: OverlapSum (the index arithmetic: the pairs landing on a sample are the four quarters' frames), Samples (the
   result as one function of the argument), LibScatterGrid (the accumulating scatter over a grid of index words, read at
   an entry), LibRowPad (stacked row blocks, a slab turned over, a strip of a block, read at an entry), KernelBlock (what
   the body stores, at an entry), KernelArray (blocks to array, the reshape, the kernel's run), RefSide (the index words
   and the reference's result). The three frames are the generated ones. The kernel read at the exact values is the kernel's own
   text, no operation rewritten, so the preservation claim states nothing. -/
import proofs.«109010_j78116865179935_1_alg».proof.Defs
import proofs.«109010_j78116865179935_1_alg».proof.Proof.Gen.Kernel
import proofs.«109010_j78116865179935_1_alg».proof.Proof.Gen.Kernel.Skeleton
import proofs.«109010_j78116865179935_1_alg».proof.Proof.Gen.Kernel.Launch
import proofs.«109010_j78116865179935_1_alg».proof.Proof.Gen.Kernel.Points
import proofs.«109010_j78116865179935_1_alg».proof.Proof.Gen.Kernel.Frame
import proofs.«109010_j78116865179935_1_alg».proof.Proof.Gen.KernelIdeal
import proofs.«109010_j78116865179935_1_alg».proof.Proof.Gen.KernelIdeal.Skeleton
import proofs.«109010_j78116865179935_1_alg».proof.Proof.Gen.KernelIdeal.Launch
import proofs.«109010_j78116865179935_1_alg».proof.Proof.Gen.KernelIdeal.Points
import proofs.«109010_j78116865179935_1_alg».proof.Proof.Gen.KernelIdeal.Frame
import proofs.«109010_j78116865179935_1_alg».proof.Proof.Gen.ReferenceIdeal
import proofs.«109010_j78116865179935_1_alg».proof.Proof.Gen.ReferenceIdeal.Run
import proofs.«109010_j78116865179935_1_alg».proof.Proof.Gen.ReferenceIdeal.Read
import proofs.«109010_j78116865179935_1_alg».proof.Proof.Gen.Pre_finite_inputs
import proofs.«109010_j78116865179935_1_alg».proof.Proof.KernelArray
import proofs.«109010_j78116865179935_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_kernel : Cert.frame_Kernel := fun m ρ _ => Cert.Kernel.Gen.frame m ρ

/-- The kernel read at the exact values runs and keeps its argument. -/
theorem frame_kernelIdeal : Cert.frame_KernelIdeal := fun m ρ _ => Cert.KernelIdeal.Gen.frame m ρ

/-- The reference runs and keeps its argument: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's reshaped rows and the reference's scattered rows both end at the array of
    overlap-added samples of the argument. -/
theorem algebraic : Cert.algebraic_KernelIdeal_ReferenceIdeal := by
  intro m ρ m' ρ' _ hagree
  refine ⟨fun c => OverlapAdd.samples
      (m ((c.tc : Thread Cert.KernelIdeal.nD Cert.KernelIdeal.τ).loc Cert.KernelIdeal.main_arg0)),
    Cert.KernelIdeal.OverlapArray.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _).trans ?_
  rw [Cert.ReferenceIdeal.OverlapRef.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
